-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_arg5 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S512x1024 : Shape := ⟨2, ![512, 1024]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩
abbrev S512x16 : Shape := ⟨2, ![512, 16]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S8192x4096, .f32⟩
  | .hbm, ⟨7, _⟩ => ⟨S4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S16x1024_S16x1024_0_0 : ∀ a, (![0, 0] : Fin 2 → Nat) a + S16x1024.size a ≤ S16x1024.size a
  h_S16x1024 : 0 < S16x1024.numel
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x1024_S1024x1024_S512x1024_1_1_0_0_n_n_wf : DotDims.WF S512x1024 S1024x1024 S512x1024 [1] [1] [0] [0] [] []
  dot_S512x1024_S16x1024_S512x16_1_1_0_0_n_n_wf : DotDims.WF S512x1024 S16x1024 S512x16 [1] [1] [0] [0] [] []
  dot_S512x16_S1024x16_S512x1024_1_1_0_0_n_n_wf : DotDims.WF S512x16 S1024x16 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S1024x16_S512x1024_1_1_0_0_n_n : DotDims S512x16 S1024x16 S512x1024 where
  lhsContracting := [1]
  rhsContracting := [1]
  lhsNonContracting := [0]
  rhsNonContracting := [0]
  lhsBatch := []
  rhsBatch := []
  wf := dot_S512x16_S1024x16_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S4x2048x4096, .f32⟩
  | .hbm, ⟨7, _⟩ => ⟨S4x2048x16, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Found.lean ====
/-
  What one run of the kernel body leaves in its two accumulators and in the output block.

  The body keeps two running sums in scratch memory: the base product `x·Wᵀ` (512 × 1024) and the
  low-rank product `x·Aᵀ` (512 × 16).  At the first step along the contraction axis it zeroes both and then adds the
  step's partial products; at a later step it adds the step's partial products to what the step before left;
  at the last step it also combines the two sums with the up-projection block and the bias row into the output
  block.  Each lemma below reads one of these results back as the body's arithmetic (a payload) of the blocks
  and of the accumulators' previous contents: every store covers its whole buffer, and every load reads a whole
  buffer, either as the step found it or as the store just before left it.  All lemmas hold for any float
  instance.
-/
import proofs.«174875_j39324720562826_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- First step: the base accumulator is zeroed, then receives the step's partial product. -/
theorem base_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : cond0_0 i) (hc1 : ¬cond0_1 i) (x0 : Vec F S512x1024 .f32) (x1 : Vec F S1024x1024 .f32) (x2 : Vec F S16x1024 .f32) (x3 : Vec F S1024x16 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- First step: the low-rank accumulator is zeroed, then receives the step's partial product. -/
theorem low_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : cond0_0 i) (hc1 : ¬cond0_1 i) (x0 : Vec F S512x1024 .f32) (x1 : Vec F S1024x1024 .f32) (x2 : Vec F S16x1024 .f32) (x3 : Vec F S1024x16 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x16) hz, View.readCov_unit_zero (S := S512x16) _ hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- A middle step adds its partial product to the base accumulator. -/
theorem base_mid (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : ¬cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S512x1024) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- A middle step adds its partial product to the low-rank accumulator. -/
theorem low_mid (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : ¬cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S512x16) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- The last step adds its partial product to the base accumulator, -/
theorem base_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x1024) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- and to the low-rank accumulator, -/
theorem low_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x16) hz]
  simp only [View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

/-- and writes the output block from the two accumulators as it has just updated them, the up-projection
    block and the bias row. -/
theorem out_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x16 .f32) (harg10 : arg10.IsWhole) (hc0 : ¬cond0_0 i) (hc1 : cond0_1 i) (x0 : Vec F S512x1024 .f32) (x1 : Vec F S1024x1024 .f32) (x2 : Vec F S16x1024 .f32) (x3 : Vec F S1024x16 .f32) (x4 : Vec F S1x1024 .f32) (xs0 : Vec F S512x1024 .f32) (xs1 : Vec F S512x16 .f32) :
    out0_C_5 c i arg3 harg3 arg4 harg4 arg5 harg5 arg6 harg6 arg7 harg7 arg8 harg8 arg9 harg9 arg10 harg10 hc0 hc1 x0 x1 x2 x3 x4 xs0 xs1
      = k0_pay6 (k0_pay5 x0 x2 xs1) x3 (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S512x1024) hz]
  simp only [View.readCov_unit_zero (S := S512x16) _ hz, View.readCov_unit_zero (S := S512x1024) _ hz,
    View.readAt_eq_ld, harg3.read_unread, harg4.read_unread, harg5.read_unread, harg6.read_unread, harg7.read_unread, harg9.read_unread, harg10.read_unread, View.ld_unit_zero (S := S512x1024) hz, View.ld_unit_zero (S := S1024x1024) hz, View.ld_unit_zero (S := S16x1024) hz, View.ld_unit_zero (S := S1024x16) hz, View.ld_unit_zero (S := S1x1024) hz, View.ld_unit_zero (S := S512x16) hz]

end Cert.KernelIdeal.Found

end
-- ==== Proof.Steps.lean ====
/-
  The accumulators, grid point by grid point.

  The grid is 16 row blocks × 4 column blocks × 4 steps along the contraction axis, the contraction step moving
  fastest: point `t` is step `t mod 4` of its (row block, column block) pair.  At a step `0` the two
  accumulators restart from zero; at every other step they continue from what the point before left; at a step `3`
  the output block is written from the two accumulators as just updated.  For any float instance.
-/
import proofs.«174875_j39324720562826_1_alg».proof.Proof.Found

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]
variable (m : (ℓ : Loc nD τ sig) → Buf (Elt F) ℓ)

/-- The blocks the body finds at point `t`: activations, frozen weight, down-projection, up-projection, bias row. -/
abbrev xblk (c : Dev nD) (t : Fin cfg0.N) : Vec F S512x1024 .f32 := iblk m c 0 t
abbrev wblk (c : Dev nD) (t : Fin cfg0.N) : Vec F S1024x1024 .f32 := iblk m c 1 t
abbrev ablk (c : Dev nD) (t : Fin cfg0.N) : Vec F S16x1024 .f32 := iblk m c 2 t
abbrev bblk (c : Dev nD) (t : Fin cfg0.N) : Vec F S1024x16 .f32 := iblk m c 3 t
abbrev biasblk (c : Dev nD) (t : Fin cfg0.N) : Vec F S1x1024 .f32 := iblk m c 4 t

/-- The base and the low-rank accumulator after point `n`. -/
abbrev baseAcc (c : Dev nD) (n : ℕ) (h : n < cfg0.N) : Vec F S512x1024 .f32 := (outsAt0 m c n h).2.1
abbrev lowAcc (c : Dev nD) (n : ℕ) (h : n < cfg0.N) : Vec F S512x16 .f32 := (outsAt0 m c n h).2.2

theorem pred_lt (t : Fin cfg0.N) : t.val - 1 < cfg0.N := Nat.lt_of_le_of_lt (Nat.sub_le _ _) t.isLt

/-- At a step `0` the base accumulator is the step's product added to zero. -/
theorem base_at_first (c : Dev nD) (t : Fin cfg0.N) (h0 : t.val % 4 = 0) :
    baseAcc m c t.val t.isLt = k0_pay4 (xblk m c t) (wblk m c t) (k0_pay1 (F := F)) := by
  have h1 : ¬t.val % 4 = 3 := by omega
  show (outsAt0 m c t.val t.isLt).2.1 = _
  rw [outsAt0_A m c t h0 h1]
  dsimp only
  exact Found.base_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- At a step `0` the low-rank accumulator is the step's product added to zero. -/
theorem low_at_first (c : Dev nD) (t : Fin cfg0.N) (h0 : t.val % 4 = 0) :
    lowAcc m c t.val t.isLt = k0_pay5 (xblk m c t) (ablk m c t) (k0_pay2 (F := F)) := by
  have h1 : ¬t.val % 4 = 3 := by omega
  show (outsAt0 m c t.val t.isLt).2.2 = _
  rw [outsAt0_A m c t h0 h1]
  dsimp only
  exact Found.low_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- At a later step the base accumulator is the step's product added to what the point before left. -/
theorem base_at_next (c : Dev nD) (t : Fin cfg0.N) (h0 : ¬t.val % 4 = 0) :
    baseAcc m c t.val t.isLt = k0_pay4 (xblk m c t) (wblk m c t) (baseAcc m c (t.val - 1) (pred_lt t)) := by
  show (outsAt0 m c t.val t.isLt).2.1 = _
  by_cases h1 : t.val % 4 = 3
  · rw [outsAt0_C m c t h0 h1]
    dsimp only
    exact Found.base_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Found.base_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- At a later step the low-rank accumulator is the step's product added to what the point before left. -/
theorem low_at_next (c : Dev nD) (t : Fin cfg0.N) (h0 : ¬t.val % 4 = 0) :
    lowAcc m c t.val t.isLt = k0_pay5 (xblk m c t) (ablk m c t) (lowAcc m c (t.val - 1) (pred_lt t)) := by
  show (outsAt0 m c t.val t.isLt).2.2 = _
  by_cases h1 : t.val % 4 = 3
  · rw [outsAt0_C m c t h0 h1]
    dsimp only
    exact Found.low_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Found.low_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- At a step `3` the output block is written from the two accumulators as that step leaves them. -/
theorem out_at_last (c : Dev nD) (t : Fin cfg0.N) (h1 : t.val % 4 = 3) :
    (outsAt0 m c t.val t.isLt).1
      = k0_pay6 (lowAcc m c t.val t.isLt) (bblk m c t) (baseAcc m c t.val t.isLt) (biasblk m c t) := by
  have h0 : ¬t.val % 4 = 0 := by omega
  rw [base_at_next m c t h0, low_at_next m c t h0]
  rw [outsAt0_C m c t h0 h1]
  dsimp only
  exact Found.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.BlockSums.lean ====
/-
  Finite sums cut into consecutive blocks.

  A sum over 4096 consecutive positions is the sum, over four blocks of 1024 positions, of the
  blocks' own sums; and an accumulator that starts from the first block's sum and adds one block's sum
  after another ends at the sum over all four.  Both hold in any commutative additive monoid: only
  associativity and commutativity of the addition are used, so on the extended reals no finiteness
  of the summands is needed.
-/
import Mathlib.Algebra.BigOperators.Fin
import Mathlib.Logic.Equiv.Fin.Basic

namespace Cert.BlockSums

open Finset

/-- Position `kk` of block `a`, among 4096 positions cut into four blocks of 1024. -/
abbrev pos (a : Fin 4) (kk : Fin 1024) : Fin 4096 :=
  ⟨1024 * a.val + kk.val, by have := a.isLt; have := kk.isLt; omega⟩

/-- The sum over 4096 positions is the sum over the four blocks of each block's sum. -/
theorem sum_blocks {M : Type*} [AddCommMonoid M] (f : Fin 4096 → M) :
    ∑ i, f i = ∑ a : Fin 4, ∑ kk : Fin 1024, f (pos a kk) := by
  rw [← Fintype.sum_prod_type (f := fun x : Fin 4 × Fin 1024 => f (pos x.1 x.2))]
  refine (Fintype.sum_equiv (finProdFinEquiv (m := 4) (n := 1024)) _ _ fun x => ?_).symm
  refine congrArg f (Fin.ext ?_)
  show 1024 * x.1.val + x.2.val = x.2.val + 1024 * x.1.val
  omega

/-- Block `a` of the sum as a function of a natural number: the block's sum for `a < 4`, zero beyond. -/
def blockSum {M : Type*} [AddCommMonoid M] (g : Fin 4 → M) (a : ℕ) : M :=
  if h : a < 4 then g ⟨a, h⟩ else 0

theorem blockSum_of_lt {M : Type*} [AddCommMonoid M] (g : Fin 4 → M) (a : ℕ) (h : a < 4) :
    blockSum g a = g ⟨a, h⟩ := dif_pos h

/-- The first four partial sums end at the whole sum. -/
theorem sum_range_four {M : Type*} [AddCommMonoid M] (g : Fin 4 → M) :
    ∑ a ∈ range 4, blockSum g a = ∑ a : Fin 4, g a := by
  rw [← Fin.sum_univ_eq_sum_range (blockSum g) 4]
  exact Fintype.sum_congr _ _ fun a => blockSum_of_lt g a.val a.isLt

/-- The contribution of block `a` to the sum of `h` over the 4096 positions, zero for `a ≥ 4`. -/
def part {M : Type*} [AddCommMonoid M] (h : Fin 4096 → M) (a : ℕ) : M :=
  blockSum (fun a' : Fin 4 => ∑ kk : Fin 1024, h (pos a' kk)) a

/-- The four contributions add up to the whole sum. -/
theorem sum_part {M : Type*} [AddCommMonoid M] (h : Fin 4096 → M) : ∑ a ∈ range 4, part h a = ∑ i, h i := by
  unfold part
  rw [sum_range_four, sum_blocks]

/-- An accumulator started at zero holds, after the first block, that block's contribution. -/
theorem step_first {M : Type*} [AddCommMonoid M] (h : Fin 4096 → M) (a : Fin 4) (ha : a.val = 0) :
    0 + ∑ kk : Fin 1024, h (pos a kk) = ∑ a' ∈ range (a.val + 1), part h a' := by
  obtain rfl : a = ⟨0, by decide⟩ := Fin.ext ha
  rw [zero_add, show ((⟨0, by decide⟩ : Fin 4).val + 1) = 1 from rfl, sum_range_one]
  exact (blockSum_of_lt (fun a' : Fin 4 => ∑ kk : Fin 1024, h (pos a' kk)) 0 (by decide)).symm

/-- An accumulator holding the contributions of blocks `0 … b` holds, after block `b + 1` is added, those
    of blocks `0 … b + 1`. -/
theorem step_next {M : Type*} [AddCommMonoid M] (h : Fin 4096 → M) (a : Fin 4) (b : ℕ) (hb : a.val = b + 1) (S : M)
    (hS : S = ∑ a' ∈ range (b + 1), part h a') :
    S + ∑ kk : Fin 1024, h (pos a kk) = ∑ a' ∈ range (a.val + 1), part h a' := by
  rw [hb, sum_range_succ _ (b + 1), ← hS]
  refine congrArg (S + ·) ?_
  have hlt : b + 1 < 4 := hb ▸ a.isLt
  obtain rfl : a = ⟨b + 1, hlt⟩ := Fin.ext hb
  exact (blockSum_of_lt (fun a' : Fin 4 => ∑ kk : Fin 1024, h (pos a' kk)) (b + 1) hlt).symm

end Cert.BlockSums
-- ==== Proof.Blocks.lean ====
/-
  Which entries of the arrays a block holds.

  The grid's point `t` works on row block `t / 16` of the flattened activations, on column block `(t / 4) mod 4`
  of the output, and on step `t mod 4` of the contraction axis.  So the activations' block holds rows
  `512·(t/16) + p` and features `1024·(t mod 4) + k`; the frozen weight's block holds output features
  `1024·((t/4) mod 4) + q` and the same features; the down-projection's block all 16 rows and the same features;
  the up-projection's block the same output features and all 16 columns; the bias row's block the same output
  features; and the output block those rows and those output features.  The index maps are decided once over the
  256 points.
-/
import proofs.«174875_j39324720562826_1_alg».proof.Proof.Steps
import proofs.«174875_j39324720562826_1_alg».proof.Proof.BlockSums
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Steps Idealize.ShloMosaic.ValueIdx Cert.BlockSums

variable {F : FTy → Type} [FloatOps F]
variable (m : (ℓ : Loc nD τ sig) → Buf (Elt F) ℓ)

/-- The windows' block indices at every point of the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem lt_N {n : ℕ} (h : n < cfg0.N) : n < 256 := lt_of_lt_of_eq h (show cfg0.N = 256 from N_0)

/-- Row `p` of point `n`'s row block, among the 8192 rows. -/
abbrev row (n : ℕ) (h : n < cfg0.N) (p : Fin 512) : Fin 8192 :=
  ⟨512 * (n / 16) + p.val, by have := lt_N h; have := p.isLt; omega⟩
/-- Column `q` of point `n`'s column block, among the 4096 output features. -/
abbrev col (n : ℕ) (q : Fin 1024) : Fin 4096 :=
  ⟨1024 * (n / 4 % 4) + q.val, by have := q.isLt; omega⟩
/-- Point `n`'s step along the contraction axis. -/
abbrev stepOf (n : ℕ) : Fin 4 := ⟨n % 4, Nat.mod_lt _ (by decide)⟩

theorem xblk_apply (c : Dev nD) (t : Fin cfg0.N) (p : Fin 512) (k : Fin 1024) :
    xblk m c t (ix2 p k) = V m c main_v0 (ix2 (row t.val t.isLt p) (pos (stepOf t.val) k)) := by
  obtain ⟨e0, e1, -⟩ := idx_facts t
  show iblk m c 0 t (ix2 p k) = _
  unfold iblk
  rw [View.read_apply]
  show V m c main_v0 (((cfg0.win 0).blk t).view.emb (ix2 p k)) = V m c main_v0 _
  refine congrArg (V m c main_v0) (funext fun a => Fin.ext ?_)
  match a with
  | ⟨0, _⟩ => show win0_0.index t (0 : Fin 2) * 512 + 1 * p.val = 512 * (t.val / 16) + p.val; omega
  | ⟨1, _⟩ => show win0_0.index t (1 : Fin 2) * 1024 + 1 * k.val = 1024 * (t.val % 4) + k.val; omega

theorem wblk_apply (c : Dev nD) (t : Fin cfg0.N) (q : Fin 1024) (k : Fin 1024) :
    wblk m c t (ix2 q k) = V m c main_arg1 (ix2 (col t.val q) (pos (stepOf t.val) k)) := by
  obtain ⟨-, -, e0, e1, -⟩ := idx_facts t
  show iblk m c 1 t (ix2 q k) = _
  unfold iblk
  rw [View.read_apply]
  show V m c main_arg1 (((cfg0.win 1).blk t).view.emb (ix2 q k)) = V m c main_arg1 _
  refine congrArg (V m c main_arg1) (funext fun a => Fin.ext ?_)
  match a with
  | ⟨0, _⟩ => show win0_1.index t (0 : Fin 2) * 1024 + 1 * q.val = 1024 * (t.val / 4 % 4) + q.val; omega
  | ⟨1, _⟩ => show win0_1.index t (1 : Fin 2) * 1024 + 1 * k.val = 1024 * (t.val % 4) + k.val; omega

theorem ablk_apply (c : Dev nD) (t : Fin cfg0.N) (r : Fin 16) (k : Fin 1024) :
    ablk m c t (ix2 r k) = V m c main_arg3 (ix2 r (pos (stepOf t.val) k)) := by
  obtain ⟨-, -, -, -, e0, e1, -⟩ := idx_facts t
  show iblk m c 2 t (ix2 r k) = _
  unfold iblk
  rw [View.read_apply]
  show V m c main_arg3 (((cfg0.win 2).blk t).view.emb (ix2 r k)) = V m c main_arg3 _
  refine congrArg (V m c main_arg3) (funext fun a => Fin.ext ?_)
  match a with
  | ⟨0, _⟩ => show win0_2.index t (0 : Fin 2) * 16 + 1 * r.val = r.val; omega
  | ⟨1, _⟩ => show win0_2.index t (1 : Fin 2) * 1024 + 1 * k.val = 1024 * (t.val % 4) + k.val; omega

theorem bblk_apply (c : Dev nD) (t : Fin cfg0.N) (q : Fin 1024) (r : Fin 16) :
    bblk m c t (ix2 q r) = V m c main_arg4 (ix2 (col t.val q) r) := by
  obtain ⟨-, -, -, -, -, -, e0, e1, -⟩ := idx_facts t
  show iblk m c 3 t (ix2 q r) = _
  unfold iblk
  rw [View.read_apply]
  show V m c main_arg4 (((cfg0.win 3).blk t).view.emb (ix2 q r)) = V m c main_arg4 _
  refine congrArg (V m c main_arg4) (funext fun a => Fin.ext ?_)
  match a with
  | ⟨0, _⟩ => show win0_3.index t (0 : Fin 2) * 1024 + 1 * q.val = 1024 * (t.val / 4 % 4) + q.val; omega
  | ⟨1, _⟩ => show win0_3.index t (1 : Fin 2) * 16 + 1 * r.val = r.val; omega

theorem biasblk_apply (c : Dev nD) (t : Fin cfg0.N) (q : Fin 1024) :
    biasblk m c t (ix2 (0 : Fin 1) q) = V m c main_v2 (ix2 (0 : Fin 1) (col t.val q)) := by
  obtain ⟨-, -, -, -, -, -, -, -, e0, e1, -⟩ := idx_facts t
  show iblk m c 4 t (ix2 (0 : Fin 1) q) = _
  unfold iblk
  rw [View.read_apply]
  show V m c main_v2 (((cfg0.win 4).blk t).view.emb (ix2 (0 : Fin 1) q)) = V m c main_v2 _
  refine congrArg (V m c main_v2) (funext fun a => Fin.ext ?_)
  match a with
  | ⟨0, _⟩ => show win0_4.index t (0 : Fin 2) * 1 + 1 * 0 = 0; omega
  | ⟨1, _⟩ => show win0_4.index t (1 : Fin 2) * 1024 + 1 * q.val = 1024 * (t.val / 4 % 4) + q.val; omega

/-- Entry `(p, q)` of point `t`'s output block sits at that row and that output feature of the result array. -/
theorem out_emb (t : Fin cfg0.N) (p : Fin 512) (q : Fin 1024) :
    ((cfg0.win 5).blk t).view.emb (ix2 p q) = ix2 (row t.val t.isLt p) (col t.val q) := by
  obtain ⟨-, -, -, -, -, -, -, -, -, -, e0, e1⟩ := idx_facts t
  refine funext fun a => Fin.ext ?_
  match a with
  | ⟨0, _⟩ => show win0_5.index t (0 : Fin 2) * 512 + 1 * p.val = 512 * (t.val / 16) + p.val; omega
  | ⟨1, _⟩ => show win0_5.index t (1 : Fin 2) * 1024 + 1 * q.val = 1024 * (t.val / 4 % 4) + q.val; omega

end Cert.KernelIdeal.Blocks

end
-- ==== Proof.Payload.lean ====
/-
  The body's arithmetic, read at an index on the extended reals.

  Each of the body's three matrix products contracts the LAST axis of both operands into a zero accumulator,
  so at row `p` and column `q` it is the plain sum over `k` of `l[p,k]·r[q,k]`; narrowing an operand to
  bfloat16 first changes nothing on the extended reals.  Hence a step's update of an accumulator `acc` reads
  `acc[p,q] + ∑ₖ x[p,k]·w[q,k]`, the zero the first step stores reads `0`, and the last step's output reads
  `(base[p,q] + 1·∑ᵣ low[p,r]·b[q,r]) + bias[0,q]`.
-/
import proofs.«174875_j39324720562826_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ### the step's base product: a 512 × 1024 block of activations against a 1024 × 1024 block of the frozen weight -/

theorem lhs_base_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_base_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_base_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_base_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator the product at `(p, q)` is the sum over the contracted axis of `l[p,k]·r[q,k]`. -/
theorem matmul_base_apply {φ₁ φ₂ : FTy} (l : FVec Ideal S512x1024 φ₁) (r : FVec Ideal S1024x1024 φ₂) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  show FloatOps.matmul dot_S512x1024_S1024x1024_S512x1024_1_1_0_0_n_n none l r (constant S512x1024 .f32 0x00000000#32) (ix2 p q) = _
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_base_0 _ _
    | ⟨1, _⟩ => exact (lhs_base_1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_base_0 _ _
    | ⟨1, _⟩ => exact (rhs_base_1 _ _).trans hk)
  rw [el, er]

/-! ### the step's low-rank product: the activations' block against a 16 × 1024 block of the down-projection -/

theorem lhs_low_0 (i : S512x16.Idx) (q : dot_S512x1024_S16x1024_S512x16_1_1_0_0_n_n.contr.Idx) :
    (dot_S512x1024_S16x1024_S512x16_1_1_0_0_n_n.lhsIdx i q 0).val = (i 0).val := by
  unfold DotDims.lhsIdx
  rw [dif_neg (show ¬(0 : Fin S512x1024.rank) ∈ dot_S512x1024_S16x1024_S512x16_1_1_0_0_n_n.lhsBatch by decide), dif_pos (show (0 : Fin S512x1024.rank) ∈ dot_S512x1024_S16x1024_S512x16_1_1_0_0_n_n.lhsNonContracting by decide)]
  rfl
theorem lhs_low_1 (i : S512x16.Idx) (q : dot_S512x1024_S16x1024_S512x16_1_1_0_0_n_n.contr.Idx) :
    (dot_S512x1024_S16x1024_S512x16_1_1_0_0_n_n.lhsIdx i q 1).val = (q ⟨0, by decide⟩).val :=
  dot_S512x1024_S16x1024_S512x16_1_1_0_0_n_n.lhsIdx_val_of_single rfl i q
theorem rhs_low_0 (i : S512x16.Idx) (q : dot_S512x1024_S16x1024_S512x16_1_1_0_0_n_n.contr.Idx) :
    (dot_S512x1024_S16x1024_S512x16_1_1_0_0_n_n.rhsIdx i q 0).val = (i 1).val := by
  unfold DotDims.rhsIdx
  rw [dif_neg (show ¬(0 : Fin S16x1024.rank) ∈ dot_S512x1024_S16x1024_S512x16_1_1_0_0_n_n.rhsBatch by decide), dif_pos (show (0 : Fin S16x1024.rank) ∈ dot_S512x1024_S16x1024_S512x16_1_1_0_0_n_n.rhsNonContracting by decide)]
  rfl
theorem rhs_low_1 (i : S512x16.Idx) (q : dot_S512x1024_S16x1024_S512x16_1_1_0_0_n_n.contr.Idx) :
    (dot_S512x1024_S16x1024_S512x16_1_1_0_0_n_n.rhsIdx i q 1).val = (q ⟨0, by decide⟩).val :=
  dot_S512x1024_S16x1024_S512x16_1_1_0_0_n_n.rhsIdx_val_of_single rfl i q

/-- Into a zero accumulator the product at `(p, q)` is the sum over the contracted axis of `l[p,k]·r[q,k]`. -/
theorem matmul_low_apply {φ₁ φ₂ : FTy} (l : FVec Ideal S512x1024 φ₁) (r : FVec Ideal S16x1024 φ₂) (p : Fin 512) (q : Fin 16) :
    matmul dot_S512x1024_S16x1024_S512x16_1_1_0_0_n_n none l r (constant S512x16 .f32 0x00000000#32) (ix2 p q)
      = ∑ k : Fin 1024, l (ix2 p k) * r (ix2 q k) := by
  show FloatOps.matmul dot_S512x1024_S16x1024_S512x16_1_1_0_0_n_n none l r (constant S512x16 .f32 0x00000000#32) (ix2 p q) = _
  rw [Ideal.matmul_constant_zero_apply, ← Equiv.sum_comp (contrEquiv1 dot_S512x1024_S16x1024_S512x16_1_1_0_0_n_n 1024 rfl rfl).symm]
  refine Finset.sum_congr rfl fun k _ => ?_
  have hk := contrEquiv1_symm_val dot_S512x1024_S16x1024_S512x16_1_1_0_0_n_n 1024 rfl rfl k
  have el : dot_S512x1024_S16x1024_S512x16_1_1_0_0_n_n.lhsIdx (ix2 p q) ((contrEquiv1 dot_S512x1024_S16x1024_S512x16_1_1_0_0_n_n 1024 rfl rfl).symm k) = ix2 p k := funext fun a => Fin.ext (by
    match a with
    | ⟨0, _⟩ => exact lhs_low_0 _ _
    | ⟨1, _⟩ => exact (lhs_low_1 _ _).trans hk)
  have er : dot_S512x1024_S16x1024_S512x16_1_1_0_0_n_n.rhsIdx (ix2 p q) ((contrEquiv1 dot_S512x1024_S16x1024_S512x16_1_1_0_0_n_n 1024 rfl rfl).symm k) = ix2 q k := funext fun a => Fin.ext (by
    match a with
    | ⟨0, _⟩ => exact rhs_low_0 _ _
    | ⟨1, _⟩ => exact (rhs_low_1 _ _).trans hk)
  rw [el, er]

/-! ### the up-projection: the 512 × 16 low-rank sums against a 1024 × 16 block of the up-projection -/

theorem lhs_up_0 (i : S512x1024.Idx) (q : dot_S512x16_S1024x16_S512x1024_1_1_0_0_n_n.contr.Idx) :
    (dot_S512x16_S1024x16_S512x1024_1_1_0_0_n_n.lhsIdx i q 0).val = (i 0).val := by
  unfold DotDims.lhsIdx
  rw [dif_neg (show ¬(0 : Fin S512x16.rank) ∈ dot_S512x16_S1024x16_S512x1024_1_1_0_0_n_n.lhsBatch by decide), dif_pos (show (0 : Fin S512x16.rank) ∈ dot_S512x16_S1024x16_S512x1024_1_1_0_0_n_n.lhsNonContracting by decide)]
  rfl
theorem lhs_up_1 (i : S512x1024.Idx) (q : dot_S512x16_S1024x16_S512x1024_1_1_0_0_n_n.contr.Idx) :
    (dot_S512x16_S1024x16_S512x1024_1_1_0_0_n_n.lhsIdx i q 1).val = (q ⟨0, by decide⟩).val :=
  dot_S512x16_S1024x16_S512x1024_1_1_0_0_n_n.lhsIdx_val_of_single rfl i q
theorem rhs_up_0 (i : S512x1024.Idx) (q : dot_S512x16_S1024x16_S512x1024_1_1_0_0_n_n.contr.Idx) :
    (dot_S512x16_S1024x16_S512x1024_1_1_0_0_n_n.rhsIdx i q 0).val = (i 1).val := by
  unfold DotDims.rhsIdx
  rw [dif_neg (show ¬(0 : Fin S1024x16.rank) ∈ dot_S512x16_S1024x16_S512x1024_1_1_0_0_n_n.rhsBatch by decide), dif_pos (show (0 : Fin S1024x16.rank) ∈ dot_S512x16_S1024x16_S512x1024_1_1_0_0_n_n.rhsNonContracting by decide)]
  rfl
theorem rhs_up_1 (i : S512x1024.Idx) (q : dot_S512x16_S1024x16_S512x1024_1_1_0_0_n_n.contr.Idx) :
    (dot_S512x16_S1024x16_S512x1024_1_1_0_0_n_n.rhsIdx i q 1).val = (q ⟨0, by decide⟩).val :=
  dot_S512x16_S1024x16_S512x1024_1_1_0_0_n_n.rhsIdx_val_of_single rfl i q

/-- Into a zero accumulator the product at `(p, q)` is the sum over the contracted axis of `l[p,k]·r[q,k]`. -/
theorem matmul_up_apply {φ₁ φ₂ : FTy} (l : FVec Ideal S512x16 φ₁) (r : FVec Ideal S1024x16 φ₂) (p : Fin 512) (q : Fin 1024) :
    matmul dot_S512x16_S1024x16_S512x1024_1_1_0_0_n_n none l r (constant S512x1024 .f32 0x00000000#32) (ix2 p q)
      = ∑ k : Fin 16, l (ix2 p k) * r (ix2 q k) := by
  show FloatOps.matmul dot_S512x16_S1024x16_S512x1024_1_1_0_0_n_n none l r (constant S512x1024 .f32 0x00000000#32) (ix2 p q) = _
  rw [Ideal.matmul_constant_zero_apply, ← Equiv.sum_comp (contrEquiv1 dot_S512x16_S1024x16_S512x1024_1_1_0_0_n_n 16 rfl rfl).symm]
  refine Finset.sum_congr rfl fun k _ => ?_
  have hk := contrEquiv1_symm_val dot_S512x16_S1024x16_S512x1024_1_1_0_0_n_n 16 rfl rfl k
  have el : dot_S512x16_S1024x16_S512x1024_1_1_0_0_n_n.lhsIdx (ix2 p q) ((contrEquiv1 dot_S512x16_S1024x16_S512x1024_1_1_0_0_n_n 16 rfl rfl).symm k) = ix2 p k := funext fun a => Fin.ext (by
    match a with
    | ⟨0, _⟩ => exact lhs_up_0 _ _
    | ⟨1, _⟩ => exact (lhs_up_1 _ _).trans hk)
  have er : dot_S512x16_S1024x16_S512x1024_1_1_0_0_n_n.rhsIdx (ix2 p q) ((contrEquiv1 dot_S512x16_S1024x16_S512x1024_1_1_0_0_n_n 16 rfl rfl).symm k) = ix2 q k := funext fun a => Fin.ext (by
    match a with
    | ⟨0, _⟩ => exact rhs_up_0 _ _
    | ⟨1, _⟩ => exact (rhs_up_1 _ _).trans hk)
  rw [el, er]

/-! ### The payloads -/

/-- The zero block the first step stores in the base accumulator. -/
theorem zero_base_apply (j : S512x1024.Idx) : k0_pay1 (F := Ideal) j = 0 := by
  unfold k0_pay1
  try dsimp only
  rw [shapeCast_self]
  exact Ideal.ofBits_zero_f32

/-- The zero block the first step stores in the low-rank accumulator. -/
theorem zero_low_apply (j : S512x16.Idx) : k0_pay2 (F := Ideal) j = 0 := by
  unfold k0_pay2
  try dsimp only
  rw [shapeCast_self]
  exact Ideal.ofBits_zero_f32

/-- A step's update of the base accumulator, at `(p, q)`. -/
theorem base_step_apply (x : Vec Ideal S512x1024 .f32) (w : Vec Ideal S1024x1024 .f32) (acc : Vec Ideal S512x1024 .f32)
    (p : Fin 512) (q : Fin 1024) :
    k0_pay4 (F := Ideal) x w acc (ix2 p q) = acc (ix2 p q) + ∑ k : Fin 1024, x (ix2 p k) * w (ix2 q k) := by
  unfold k0_pay4 k0_pay3
  try dsimp only
  rw [shapeCast_self, shapeCast_self]
  refine (addf_apply _ _ _).trans ?_
  rw [matmul_base_apply]
  rfl

/-- A step's update of the low-rank accumulator, at `(p, r)`. -/
theorem low_step_apply (x : Vec Ideal S512x1024 .f32) (a : Vec Ideal S16x1024 .f32) (acc : Vec Ideal S512x16 .f32)
    (p : Fin 512) (r : Fin 16) :
    k0_pay5 (F := Ideal) x a acc (ix2 p r) = acc (ix2 p r) + ∑ k : Fin 1024, x (ix2 p k) * a (ix2 r k) := by
  unfold k0_pay5 k0_pay3
  try dsimp only
  rw [shapeCast_self, shapeCast_self]
  refine (addf_apply _ _ _).trans ?_
  rw [matmul_low_apply]
  rfl

/-- The bias row broadcast down the block's 512 rows, at `(p, q)`. -/
theorem bias_rows_apply (v : Vec Ideal S1x1024 .f32) (h : S1x1024.Broadcasts S512x1024) (p : Fin 512) (q : Fin 1024) :
    broadcastTo S512x1024 v h (ix2 p q) = v (ix2 (0 : Fin 1) q) :=
  broadcastTo_apply v h _ _ (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])

/-- The last step's output block from the two accumulators, the up-projection block and the bias row, at `(p, q)`. -/
theorem out_step_apply (lo : Vec Ideal S512x16 .f32) (b : Vec Ideal S1024x16 .f32) (ba : Vec Ideal S512x1024 .f32)
    (bias : Vec Ideal S1x1024 .f32) (p : Fin 512) (q : Fin 1024) :
    k0_pay6 (F := Ideal) lo b ba bias (ix2 p q)
      = (ba (ix2 p q) + Ideal.ofBits .f32 0x3F800000#32 * ∑ r : Fin 16, lo (ix2 p r) * b (ix2 q r)) + bias (ix2 (0 : Fin 1) q) := by
  unfold k0_pay6
  try dsimp only
  rw [shapeCast_self]
  refine (addf_apply _ _ _).trans ?_
  rw [bias_rows_apply]
  refine congrArg (· + bias (ix2 (0 : Fin 1) q)) ?_
  refine (addf_apply _ _ _).trans ?_
  refine congrArg (ba (ix2 p q) + ·) ?_
  refine (mulf_apply _ _ _).trans ?_
  rw [matmul_up_apply]
  rfl

end Cert.KernelIdeal.Payload

end
-- ==== Proof.Spec.lean ====
/-
  The low-rank-adapted linear layer, as one function of its arrays.

  For flattened activations `X` (8192 rows of 4096 features), a frozen weight `W` (4096 outputs by 4096
  features), adapter factors `A` (16 by 4096) and `B` (4096 by 16) and a bias row, the layer's output
  at row `r` and output feature `o` is

      (∑ᵢ X[r,i]·W[o,i]  +  1·∑_q (∑ᵢ X[r,i]·A[q,i])·B[o,q])  +  bias[o]

  on the extended reals, the factor `1` being the word of the float `1.0` (the adapter's scaling
  α / rank = 16 / 16), which both programs carry and which is therefore never evaluated.
-/
import Idealize.ShloMosaic.PureOps.Ideal
import Idealize.ShloMosaic.Lib.ValueIdx

noncomputable section

namespace Cert.LoraSpec

open Idealize.ShloMosaic ValueIdx

abbrev SX : Shape := ⟨2, ![8192, 4096]⟩
abbrev SW : Shape := ⟨2, ![4096, 4096]⟩
abbrev SA : Shape := ⟨2, ![16, 4096]⟩
abbrev SB : Shape := ⟨2, ![4096, 16]⟩
abbrev SBias : Shape := ⟨2, ![1, 4096]⟩

/-- The adapter's scaling α / rank, the float `1.0`, as both programs spell it. -/
abbrev scaling : EReal := Ideal.ofBits .f32 0x3F800000#32

/-- Row `r` of the activations against row `o` of the frozen weight. -/
def base (X : FVec Ideal SX .f32) (W : FVec Ideal SW .f32) (r : Fin 8192) (o : Fin 4096) : EReal :=
  ∑ i : Fin 4096, X (ix2 r i) * W (ix2 o i)

/-- Row `r` of the activations against row `q` of the adapter's down-projection. -/
def low (X : FVec Ideal SX .f32) (A : FVec Ideal SA .f32) (r : Fin 8192) (q : Fin 16) : EReal :=
  ∑ i : Fin 4096, X (ix2 r i) * A (ix2 q i)

/-- The layer's output, index by index. -/
def out (X : FVec Ideal SX .f32) (W : FVec Ideal SW .f32) (A : FVec Ideal SA .f32) (B : FVec Ideal SB .f32)
    (bias : FVec Ideal SBias .f32) : FVec Ideal SX .f32 := fun j =>
  (base X W (j 0) (j 1) + scaling * ∑ q : Fin 16, low X A (j 0) q * B (ix2 (j 1) q)) + bias (ix2 (0 : Fin 1) (j 1))

theorem out_apply (X : FVec Ideal SX .f32) (W : FVec Ideal SW .f32) (A : FVec Ideal SA .f32) (B : FVec Ideal SB .f32)
    (bias : FVec Ideal SBias .f32) (r : Fin 8192) (o : Fin 4096) :
    out X W A B bias (ix2 r o)
      = (base X W r o + scaling * ∑ q : Fin 16, low X A r q * B (ix2 o q)) + bias (ix2 (0 : Fin 1) o) := rfl

end Cert.LoraSpec

end
-- ==== Proof.Accum.lean ====
/-
  The accumulators hold partial sums, and the output block holds the layer's output.

  After point `n`, step `n mod 4` of its (row block, column block) pair, the base accumulator holds at `(p, q)`
  the contributions of the contraction blocks `0 … n mod 4` to `∑ᵢ X[R,i]·W[O,i]`, where `R` and `O` are the row
  and the output feature that `(p, q)` stands for; the low-rank accumulator likewise for `∑ᵢ X[R,i]·A[r,i]`.  By
  induction on the point: a step `0` starts from zero, a later step adds its block to what the point before —
  the same pair's previous step — left.  After a step `3` both sums are complete, so the output block written there
  is the layer's output at those rows and output features; these blocks tile the result array.
-/
import proofs.«174875_j39324720562826_1_alg».proof.Proof.Blocks
import proofs.«174875_j39324720562826_1_alg».proof.Proof.Payload
import proofs.«174875_j39324720562826_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Steps Cert.KernelIdeal.Blocks
open Idealize.ShloMosaic.ValueIdx Cert.BlockSums Finset

variable (m : (ℓ : Loc nD τ sig) → Buf (Elt Ideal) ℓ)

/-- The arrays as the kernel's launch finds them: flattened activations, frozen weight, the two adapter factors,
    the bias row. -/
abbrev Xarr (c : Dev nD) : FVec Ideal S8192x4096 .f32 := V m c main_v0
abbrev Warr (c : Dev nD) : FVec Ideal S4096x4096 .f32 := V m c main_arg1
abbrev Aarr (c : Dev nD) : FVec Ideal S16x4096 .f32 := V m c main_arg3
abbrev Barr (c : Dev nD) : FVec Ideal S4096x16 .f32 := V m c main_arg4
abbrev biasArr (c : Dev nD) : FVec Ideal S1x4096 .f32 := V m c main_v2

/-- The products summed along the contraction axis for row `R` against output feature `O`, and against
    adapter row `r`. -/
abbrev baseTerm (c : Dev nD) (R : Fin 8192) (O : Fin 4096) : Fin 4096 → EReal :=
  fun i => Xarr m c (ix2 R i) * Warr m c (ix2 O i)
abbrev lowTerm (c : Dev nD) (R : Fin 8192) (r : Fin 16) : Fin 4096 → EReal :=
  fun i => Xarr m c (ix2 R i) * Aarr m c (ix2 r i)

/-! ### The base accumulator -/

theorem base_first_case (c : Dev nD) (t : Fin cfg0.N) (h0 : t.val % 4 = 0) (p : Fin 512) (q : Fin 1024) :
    baseAcc m c t.val t.isLt (ix2 p q)
      = ∑ a ∈ range (t.val % 4 + 1), part (baseTerm m c (row t.val t.isLt p) (col t.val q)) a := by
  refine (congrFun (base_at_first m c t h0) (ix2 p q)).trans ?_
  rw [Payload.base_step_apply, Payload.zero_base_apply]
  simp only [xblk_apply, wblk_apply]
  exact step_first (baseTerm m c (row t.val t.isLt p) (col t.val q)) (stepOf t.val) h0

theorem base_inv (c : Dev nD) : ∀ (n : ℕ) (h : n < cfg0.N) (p : Fin 512) (q : Fin 1024),
    baseAcc m c n h (ix2 p q) = ∑ a ∈ range (n % 4 + 1), part (baseTerm m c (row n h p) (col n q)) a := by
  intro n
  induction n with
  | zero => intro h p q; exact base_first_case m c ⟨0, h⟩ rfl p q
  | succ n ih =>
    intro h p q
    by_cases h0 : (n + 1) % 4 = 0
    · exact base_first_case m c ⟨n + 1, h⟩ h0 p q
    · refine (congrFun (base_at_next m c ⟨n + 1, h⟩ h0) (ix2 p q)).trans ?_
      rw [Payload.base_step_apply]
      simp only [xblk_apply, wblk_apply]
      refine step_next (baseTerm m c (row (n + 1) h p) (col (n + 1) q)) (stepOf (n + 1)) (n % 4)
        (by show (n + 1) % 4 = n % 4 + 1; omega) _ ?_
      have hr : row (n + 1) h p = row n (Nat.lt_of_succ_lt h) p :=
        Fin.ext (by show 512 * ((n + 1) / 16) + p.val = 512 * (n / 16) + p.val; omega)
      have hc : col (n + 1) q = col n q :=
        Fin.ext (by show 1024 * ((n + 1) / 4 % 4) + q.val = 1024 * (n / 4 % 4) + q.val; omega)
      rw [hr, hc]
      exact ih (Nat.lt_of_succ_lt h) p q

/-! ### The low-rank accumulator -/

theorem low_first_case (c : Dev nD) (t : Fin cfg0.N) (h0 : t.val % 4 = 0) (p : Fin 512) (r : Fin 16) :
    lowAcc m c t.val t.isLt (ix2 p r)
      = ∑ a ∈ range (t.val % 4 + 1), part (lowTerm m c (row t.val t.isLt p) r) a := by
  refine (congrFun (low_at_first m c t h0) (ix2 p r)).trans ?_
  rw [Payload.low_step_apply, Payload.zero_low_apply]
  simp only [xblk_apply, ablk_apply]
  exact step_first (lowTerm m c (row t.val t.isLt p) r) (stepOf t.val) h0

theorem low_inv (c : Dev nD) : ∀ (n : ℕ) (h : n < cfg0.N) (p : Fin 512) (r : Fin 16),
    lowAcc m c n h (ix2 p r) = ∑ a ∈ range (n % 4 + 1), part (lowTerm m c (row n h p) r) a := by
  intro n
  induction n with
  | zero => intro h p r; exact low_first_case m c ⟨0, h⟩ rfl p r
  | succ n ih =>
    intro h p r
    by_cases h0 : (n + 1) % 4 = 0
    · exact low_first_case m c ⟨n + 1, h⟩ h0 p r
    · refine (congrFun (low_at_next m c ⟨n + 1, h⟩ h0) (ix2 p r)).trans ?_
      rw [Payload.low_step_apply]
      simp only [xblk_apply, ablk_apply]
      refine step_next (lowTerm m c (row (n + 1) h p) r) (stepOf (n + 1)) (n % 4)
        (by show (n + 1) % 4 = n % 4 + 1; omega) _ ?_
      have hr : row (n + 1) h p = row n (Nat.lt_of_succ_lt h) p :=
        Fin.ext (by show 512 * ((n + 1) / 16) + p.val = 512 * (n / 16) + p.val; omega)
      rw [hr]
      exact ih (Nat.lt_of_succ_lt h) p r

/-! ### After a step 3 the sums are complete -/

theorem base_complete (c : Dev nD) (t : Fin cfg0.N) (h1 : t.val % 4 = 3) (p : Fin 512) (q : Fin 1024) :
    baseAcc m c t.val t.isLt (ix2 p q)
      = LoraSpec.base (Xarr m c) (Warr m c) (row t.val t.isLt p) (col t.val q) := by
  rw [base_inv m c t.val t.isLt p q, show t.val % 4 + 1 = 4 from by omega, sum_part]
  rfl

theorem low_complete (c : Dev nD) (t : Fin cfg0.N) (h1 : t.val % 4 = 3) (p : Fin 512) (r : Fin 16) :
    lowAcc m c t.val t.isLt (ix2 p r) = LoraSpec.low (Xarr m c) (Aarr m c) (row t.val t.isLt p) r := by
  rw [low_inv m c t.val t.isLt p r, show t.val % 4 + 1 = 4 from by omega, sum_part]
  rfl

/-- The layer's output of the arrays as the launch finds them. -/
abbrev result (c : Dev nD) : FVec Ideal S8192x4096 .f32 :=
  LoraSpec.out (Xarr m c) (Warr m c) (Aarr m c) (Barr m c) (biasArr m c)

/-- The output block written at a step `3` is the layer's output read through the block. -/
theorem out_value (c : Dev nD) (t : Fin cfg0.N) (h1 : t.val % 4 = 3) (y : S512x1024.Idx) :
    (outsAt0 m c t.val t.isLt).1 y = result m c (((cfg0.win 5).blk t).view.emb y) := by
  obtain ⟨p, q, rfl⟩ : ∃ (p : Fin 512) (q : Fin 1024), y = ix2 p q := ⟨y 0, y 1, eq_ix2 y⟩
  rw [out_emb]
  refine (congrFun (out_at_last m c t h1) (ix2 p q)).trans ?_
  rw [Payload.out_step_apply, base_complete m c t h1 p q]
  simp only [low_complete m c t h1 p, bblk_apply, biasblk_apply]
  rfl

/-- What point `t` writes back is block `t` of the layer's output. -/
theorem flushed_eq (c : Dev nD) (t : Fin cfg0.N) (hf : (cfg0.win 5).flush t = true) :
    (dats m 0 c).flushed 5 t = ((cfg0.win 5).blk t).view.read (Elt Ideal) (result m c) := by
  have h1 : t.val % 4 = 3 := (flush0_5 t).mp hf
  show (cfg0.win 5).cut (grid0.coords t) ((dats m 0 c).after 5 t) = _
  rw [after0_5]
  funext y
  rw [View.read_apply]
  exact out_value m c t h1 y

/-- An index of the result array is in point `t`'s block iff each coordinate is in the block's range. -/
theorem mem_blk (t : Fin cfg0.N) (i : S8192x4096.Idx) :
    i ∈ ((cfg0.win 5).blk t).view.set
      ↔ ∀ a : Fin 2, win0_5.index t a * S512x1024.size a ≤ (i a).val ∧ (i a).val < win0_5.index t a * S512x1024.size a + S512x1024.size a := by
  show i ∈ ((View.whole main_v3).slice (win0_5.rect t)).set ↔ _
  rw [View.set_slice_whole, Rect.mem_set_unit]
  exact Iff.rfl

/-- Every entry of the result array is in the block written at the step `3` of its row block and column block. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨n, hn⟩ : ∃ n, n = 16 * ((i 0).val / 512) + 4 * ((i 1).val / 1024) + 3 := ⟨_, rfl⟩
  have hN : n < cfg0.N := by rw [show cfg0.N = 256 from N_0]; omega
  obtain ⟨-, -, -, -, -, -, -, -, -, -, e0, e1⟩ := idx_facts ⟨n, hN⟩
  have e0' : win0_5.index ⟨n, hN⟩ (0 : Fin 2) = n / 16 := e0
  have e1' : win0_5.index ⟨n, hN⟩ (1 : Fin 2) = n / 4 % 4 := e1
  refine ⟨⟨n, hN⟩, (flush0_5 _).mpr (by show n % 4 = 3; omega), ?_⟩
  rw [mem_blk]
  intro a
  match a with
  | ⟨0, _⟩ =>
    show win0_5.index ⟨n, hN⟩ (0 : Fin 2) * 512 ≤ (i 0).val ∧ (i 0).val < win0_5.index ⟨n, hN⟩ (0 : Fin 2) * 512 + 512
    omega
  | ⟨1, _⟩ =>
    show win0_5.index ⟨n, hN⟩ (1 : Fin 2) * 1024 ≤ (i 1).val ∧ (i 1).val < win0_5.index ⟨n, hN⟩ (1 : Fin 2) * 1024 + 1024
    omega

/-- The result array after the run is the layer's output. -/
theorem final (c : Dev nD) : (dats m 0 c).arrAt 5 cfg0.N = result m c :=
  (dats m 0 c).arrAt_eq_of_cover 5 (result m c) (fun t hf => flushed_eq m c t hf) covered

end Cert.KernelIdeal.Accum

end
-- ==== Proof.KernelRun.lean ====
/-
  The kernel program's run, read as the layer's output.

  Before the launch the program flattens the activations to `8192 × 4096` and adds the two biases into one row;
  after it, it cuts the `8192 × 4096` result back into `4 × 2048 × 4096`.  So its result is the layer's output of
  the flattened activations, the frozen weight, the adapter's factors and the summed bias row, cut back into
  batches, and its six arguments end as they began.
-/
import proofs.«174875_j39324720562826_1_alg».proof.Proof.Accum
import Idealize.ShloMosaic.Lib.StableHlo.Run

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Idealize.ShloMosaic.StableHlo

variable (m : (ℓ : Loc nD τ sig) → Buf (Elt Ideal) ℓ) (ρ : Dev nD → PrngReg)

/-- The launch finds the activations flattened, -/
theorem X_eq (c : Dev nD) :
    Accum.Xarr m c = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- and the two biases summed and laid out as one row. -/
theorem bias_eq (c : Dev nD) :
    Accum.biasArr m c
      = shapeCast S1x4096 (addf (m ((c : Thread nD τ).loc main_arg2)) (m ((c : Thread nD τ).loc main_arg5))) Facts₀.shapeCasts_S4096_S1x4096 := by
  show StableHlo.after hostOps0 (fun b => m (c, b)) (Proc.devRef .tc main_v2) = _
  after_results
  rfl

/-- The layer's output of the program's arguments, cut back into batches. -/
abbrev layer (c : Dev nD) : FVec Ideal S4x2048x4096 .f32 :=
  shapeCast S4x2048x4096
    (LoraSpec.out (shapeCast S8192x4096 (m ((c : Thread nD τ).loc main_arg0)) Facts₀.shapeCasts_S4x2048x4096_S8192x4096)
      (m ((c : Thread nD τ).loc main_arg1)) (m ((c : Thread nD τ).loc main_arg3)) (m ((c : Thread nD τ).loc main_arg4))
      (shapeCast S1x4096 (addf (m ((c : Thread nD τ).loc main_arg2)) (m ((c : Thread nD τ).loc main_arg5))) Facts₀.shapeCasts_S4096_S1x4096))
    Facts₀.shapeCasts_S8192x4096_S4x2048x4096

/-- The launch's result array is the layer's output of the arguments. -/
theorem result_eq (c : Dev nD) :
    Accum.result m c
      = LoraSpec.out (shapeCast S8192x4096 (m ((c : Thread nD τ).loc main_arg0)) Facts₀.shapeCasts_S4x2048x4096_S8192x4096)
          (m ((c : Thread nD τ).loc main_arg1)) (m ((c : Thread nD τ).loc main_arg3)) (m ((c : Thread nD τ).loc main_arg4))
          (shapeCast S1x4096 (addf (m ((c : Thread nD τ).loc main_arg2)) (m ((c : Thread nD τ).loc main_arg5))) Facts₀.shapeCasts_S4096_S1x4096) := by
  show LoraSpec.out (Accum.Xarr m c) (Accum.Warr m c) (Accum.Aarr m c) (Accum.Barr m c) (Accum.biasArr m c) = _
  rw [X_eq, bias_eq]
  show LoraSpec.out _ (V m c main_arg1) (V m c main_arg3) (V m c main_arg4) _ = _
  rw [V_main_arg1, V_main_arg3, V_main_arg4]

/-- The program's result: the host line after the launch cuts the launch's result array into batches. -/
theorem tail_eq (c : Dev nD) :
    Pipeline.afterTail₀ cfgs (dats m) 0 (V0 m) [hostOps1] c main_v4 = layer m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = Accum.result m c :=
    (Pipeline.withArrays_arr spec0 launch0.win.arr_inj c (V0 m c) (fun w => (dats m 0 c).arrAt w cfg0.N) 5).trans (Accum.final m c)
  funext i
  show shapeCast S4x2048x4096 (Pipeline.withArrays (cfgs 0).spec c (V0 m c) (fun w => (dats m 0 c).arrAt w (cfgs 0).N)
    (Proc.devRef .tc main_v3)) Facts₀.shapeCasts_S8192x4096_S4x2048x4096 i = _
  rw [e, result_eq]

/-- Every weakly fair execution of the kernel program terminates with its result at the layer's output of its
    arguments and its arguments unchanged. -/
theorem run : θ_run defs (onTc (τ := τ) (main (F := Ideal))) ⟨m, fun _ => 0, ρ⟩ fun r => ∀ c : Dev nD,
      r.2.mem ((c.tc : Thread nD τ).loc main_v4) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.KernelRun

end
-- ==== Proof.RefValue.lean ====
/-
  The reference computes the layer's output.

  The reference contracts the activations `x[b,s,·]` with the rows of the frozen weight, contracts them with
  the rows of the adapter's down-projection and the result with the rows of its up-projection, scales that
  by `1.0`, and adds the two biases' sum, broadcast along batch and sequence.  Read at `(b, s, o)` this is the
  layer's output at row `2048·b + s` of the flattened activations and output feature `o`: a reshape keeps
  the row-major position, and `(b, s, i)` of a `4 × 2048 × 4096` array sits where `(2048·b + s, i)` of an
  `8192 × 4096` one does.
-/
import proofs.«174875_j39324720562826_1_alg».proof.Proof.Gen.ReferenceIdeal.Read
import proofs.«174875_j39324720562826_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.LoraSpec

/-- Row `2048·b + s` of the flattened activations. -/
abbrev flatRow (b : Fin 4) (s : Fin 2048) : Fin 8192 :=
  ⟨2048 * b.val + s.val, by have := b.isLt; have := s.isLt; omega⟩

/-- The flattened activations at `(2048·b + s, i)` are the activations at `(b, s, i)`. -/
theorem flatten_apply {α : Type} (x : S4x2048x4096.Idx → α) (h : S4x2048x4096.ShapeCasts SX) (b : Fin 4) (s : Fin 2048)
    (i : Fin 4096) : shapeCast SX x h (ix2 (flatRow b s) i) = x (ix3 b s i) :=
  shapeCast_apply x h _ _ (by
    rw [Shape.rowMajor_val_three, Shape.rowMajor_val_two]
    show (b.val * 2048 + s.val) * 4096 + i.val = (2048 * b.val + s.val) * 4096 + i.val
    omega)

/-- An `8192 × 4096` array cut back into batches at `(b, s, o)` is the array at `(2048·b + s, o)`. -/
theorem unflatten_apply {α : Type} (y : SX.Idx → α) (h : SX.ShapeCasts S4x2048x4096) (b : Fin 4) (s : Fin 2048)
    (o : Fin 4096) : shapeCast S4x2048x4096 y h (ix3 b s o) = y (ix2 (flatRow b s) o) :=
  shapeCast_apply y h _ _ (by
    rw [Shape.rowMajor_val_three, Shape.rowMajor_val_two]
    show (2048 * b.val + s.val) * 4096 + o.val = (b.val * 2048 + s.val) * 4096 + o.val
    omega)

/-- A vector laid out as one row, at `(0, o)`, is the vector at `o`. -/
theorem row_apply {α : Type} (v : S4096.Idx → α) (h : S4096.ShapeCasts SBias) (o : Fin 4096) :
    shapeCast SBias v h (ix2 (0 : Fin 1) o) = v (ix1 o) :=
  shapeCast_apply v h _ _ (by
    rw [Shape.rowMajor_val_two, Shape.rowMajor_val_one]
    show o.val = 0 * 4096 + o.val
    omega)

/-! The reference's operand indices at `(b, s, o)`, by coordinates. -/

theorem lidx0 (b : Fin 4) (s : Fin 2048) (o k : Fin 4096) : lidx_main_v0 (ix3 b s o) k = ix3 b s k :=
  funext fun a => by match a with | ⟨0, _⟩ => rfl | ⟨1, _⟩ => rfl | ⟨2, _⟩ => rfl
theorem ridx0 (b : Fin 4) (s : Fin 2048) (o k : Fin 4096) : ridx_main_v0 (ix3 b s o) k = ix2 o k :=
  funext fun a => by match a with | ⟨0, _⟩ => rfl | ⟨1, _⟩ => rfl
theorem lidx1 (b : Fin 4) (s : Fin 2048) (q : Fin 16) (k : Fin 4096) : lidx_main_v1 (ix3 b s q) k = ix3 b s k :=
  funext fun a => by match a with | ⟨0, _⟩ => rfl | ⟨1, _⟩ => rfl | ⟨2, _⟩ => rfl
theorem ridx1 (b : Fin 4) (s : Fin 2048) (q : Fin 16) (k : Fin 4096) : ridx_main_v1 (ix3 b s q) k = ix2 q k :=
  funext fun a => by match a with | ⟨0, _⟩ => rfl | ⟨1, _⟩ => rfl
theorem lidx2 (b : Fin 4) (s : Fin 2048) (o : Fin 4096) (q : Fin 16) : lidx_main_v2 (ix3 b s o) q = ix3 b s q :=
  funext fun a => by match a with | ⟨0, _⟩ => rfl | ⟨1, _⟩ => rfl | ⟨2, _⟩ => rfl
theorem ridx2 (b : Fin 4) (s : Fin 2048) (o : Fin 4096) (q : Fin 16) : ridx_main_v2 (ix3 b s o) q = ix2 o q :=
  funext fun a => by match a with | ⟨0, _⟩ => rfl | ⟨1, _⟩ => rfl
theorem idx78 (b : Fin 4) (s : Fin 2048) (o : Fin 4096) : idx_main_v7 (idx_main_v8 (ix3 b s o)) = ix1 o :=
  funext fun a => by match a with | ⟨0, _⟩ => rfl

/-- The reference's result is the layer's output of the flattened activations, cut back into batches. -/
theorem ref_eq_out (x0 : FVec Ideal S4x2048x4096 .f32) (x1 : FVec Ideal S4096x4096 .f32) (x2 : FVec Ideal S4096 .f32)
    (x3 : FVec Ideal S16x4096 .f32) (x4 : FVec Ideal S4096x16 .f32) (x5 : FVec Ideal S4096 .f32)
    (hX : S4x2048x4096.ShapeCasts SX) (hb : S4096.ShapeCasts SBias) (hY : SX.ShapeCasts S4x2048x4096) :
    val_main_v9 (F := Ideal) x0 x1 x2 x3 x4 x5
      = shapeCast S4x2048x4096 (out (shapeCast SX x0 hX) x1 x3 x4 (shapeCast SBias (addf x2 x5) hb)) hY := by
  funext i
  obtain ⟨b, s, o, rfl⟩ : ∃ (b : Fin 4) (s : Fin 2048) (o : Fin 4096), i = ix3 b s o := ⟨i 0, i 1, i 2, eq_ix3 i⟩
  rw [unflatten_apply, out_apply, row_apply]
  rw [val_main_v9_apply, val_main_v5_apply, val_main_v0_apply, val_main_v4_apply, val_main_v3_apply, val_main_cst_apply,
    val_main_v2_apply, val_main_v8_apply, val_main_v7_apply, val_main_v6_apply, idx78]
  simp only [val_main_v1_apply, lidx0, ridx0, lidx1, ridx1, lidx2, ridx2]
  unfold base low
  simp only [flatten_apply]
  rfl

end Cert.ReferenceIdeal.RefValue

end
-- ==== Proof.lean ====
/-
  A linear layer with a low-rank adapter, computed tile by tile, against its plain formula.

  Both programs compute, for activations `x` (4 × 2048 × 4096), a frozen weight `W` (4096 × 4096), adapter factors
  `A` (16 × 4096) and `B` (4096 × 16) and two bias vectors,

      y[b,s,o] = (∑ᵢ x[b,s,i]·W[o,i]  +  1·∑_q (∑ᵢ x[b,s,i]·A[q,i])·B[o,q])  +  (bias[o] + lora_bias[o]).

  The reference contracts whole axes.  The kernel flattens batch and sequence into 8192 rows and walks a grid of
  16 row blocks × 4 column blocks × 4 contraction blocks: along the contraction axis it accumulates the base product
  and the low-rank product `x·Aᵀ` block by block in two scratch accumulators, and at the last contraction block it
  contracts the low-rank accumulator with the block of `B`, scales, adds the base accumulator and the bias row and
  writes the output tile; a final reshape restores the batches.  Its operands are narrowed to bfloat16 before
  each product, which is the identity on the extended reals.

  The two results agree because a sum over 4096 positions is the sum of its four blocks' sums, taken in any
  order: only associativity and commutativity of the extended reals' addition are used, so the finiteness of
  the inputs is never needed.  The modules: the layer's output as one function of the arrays (Spec); sums cut into
  blocks (BlockSums); what one run of the body leaves (Found) and its arithmetic at an index (Payload); the
  accumulators point by point (Steps), which array entries a block holds (Blocks), the accumulators as partial
  sums and the result array (Accum), the kernel program's run (KernelRun); the reference's result (RefValue).
-/
import proofs.«174875_j39324720562826_1_alg».proof.Defs
import proofs.«174875_j39324720562826_1_alg».proof.Proof.Gen.Kernel
import proofs.«174875_j39324720562826_1_alg».proof.Proof.Gen.Kernel.Skeleton
import proofs.«174875_j39324720562826_1_alg».proof.Proof.Gen.Kernel.Launch
import proofs.«174875_j39324720562826_1_alg».proof.Proof.Gen.Kernel.Points
import proofs.«174875_j39324720562826_1_alg».proof.Proof.Gen.Kernel.Frame
import proofs.«174875_j39324720562826_1_alg».proof.Proof.Gen.KernelIdeal
import proofs.«174875_j39324720562826_1_alg».proof.Proof.Gen.KernelIdeal.Skeleton
import proofs.«174875_j39324720562826_1_alg».proof.Proof.Gen.KernelIdeal.Launch
import proofs.«174875_j39324720562826_1_alg».proof.Proof.Gen.KernelIdeal.Points
import proofs.«174875_j39324720562826_1_alg».proof.Proof.Gen.KernelIdeal.Frame
import proofs.«174875_j39324720562826_1_alg».proof.Proof.Gen.ReferenceIdeal
import proofs.«174875_j39324720562826_1_alg».proof.Proof.Gen.ReferenceIdeal.Run
import proofs.«174875_j39324720562826_1_alg».proof.Proof.Gen.ReferenceIdeal.Read
import proofs.«174875_j39324720562826_1_alg».proof.Proof.Gen.Pre_finite_inputs
import proofs.«174875_j39324720562826_1_alg».proof.Proof.KernelRun
import proofs.«174875_j39324720562826_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the arguments, the kernel's result and the reference's are
    both the layer's output of the arguments. -/
theorem algebraic : Cert.algebraic_KernelIdeal_ReferenceIdeal := by
  intro m ρ m' ρ' _ hagree
  refine ⟨fun c => Cert.KernelIdeal.KernelRun.layer m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v9_eq, a0, a1, a2, a3, a4, a5]
  exact Cert.ReferenceIdeal.RefValue.ref_eq_out _ _ _ _ _ _
    Cert.KernelIdeal.Facts₀.shapeCasts_S4x2048x4096_S8192x4096 Cert.KernelIdeal.Facts₀.shapeCasts_S4096_S1x4096
    Cert.KernelIdeal.Facts₀.shapeCasts_S8192x4096_S4x2048x4096

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
